-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x128 .f32) (main_arg2 : FVec F S1600000 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S1600000 : Shape := ⟨1, ![1600000]⟩
abbrev S10000x128 : Shape := ⟨2, ![10000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 23
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S10000x128_S10000x128 : S10000x128.ShapeCasts S10000x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Product.lean ====
/-
  The first kernel region's output array. Each of the ten grid points loads a block of 10000 rows of the left
  operand and the whole right operand, and stores their matrix product (into a zero accumulator; the narrowing
  to bf16 is the identity on extended reals). Row `r` of block `t` is row `10000·t + r` of the array, so
  the ten blocks tile the 100000 rows, and after the region the array holds, at index (r, c),
  the sum over k < 128 of left(r, k) · right(k, c).
-/
import proofs.«173823_j26551487823936_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.SL.Sem
open Idealize.ShloMosaic.Pipeline (Dat Cfg Window)

/-! ## The product array, index by index -/

/-- Entry (r, k) of the left operand, for the output index (r, c). -/
abbrev rowAt (i : S100000x128.Idx) (k : Fin 128) : S100000x128.Idx := fun a => match a with
  | ⟨0, _⟩ => ⟨(i 0).val, (i 0).isLt⟩
  | ⟨1, _⟩ => ⟨k.val, k.isLt⟩
/-- Entry (k, c) of the right operand, for the output index (r, c). -/
abbrev colAt (i : S100000x128.Idx) (k : Fin 128) : S128x128.Idx := fun a => match a with
  | ⟨0, _⟩ => ⟨k.val, k.isLt⟩
  | ⟨1, _⟩ => ⟨(i 1).val, (i 1).isLt⟩

/-- The matrix product of a 100000×128 array with a 128×128 array, over the extended reals. -/
def prod (X : S100000x128.Idx → EReal) (Wt : S128x128.Idx → EReal) : S100000x128.Idx → EReal :=
  fun i => ∑ k : Fin 128, X (rowAt i k) * Wt (colAt i k)

/-! ## One block's payload at an index -/

/-- The same two readings inside a block of 10000 rows. -/
abbrev blockRowAt (j : S10000x128.Idx) (k : Fin 128) : S10000x128.Idx := fun a => match a with
  | ⟨0, _⟩ => ⟨(j 0).val, (j 0).isLt⟩
  | ⟨1, _⟩ => ⟨k.val, k.isLt⟩
abbrev blockColAt (j : S10000x128.Idx) (k : Fin 128) : S128x128.Idx := fun a => match a with
  | ⟨0, _⟩ => ⟨k.val, k.isLt⟩
  | ⟨1, _⟩ => ⟨(j 1).val, (j 1).isLt⟩

theorem lhs_block_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_block_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_block_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_block_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What a grid point stores, at an index of its block: the narrowing is the identity and the accumulator is zero, so
    it is the plain sum of products along the contracted axis. -/
theorem payload_apply (x0 : Vec Ideal S10000x128 .f32) (x1 : Vec Ideal S128x128 .f32) (j : S10000x128.Idx) :
    k0_pay1 (F := Ideal) x0 x1 j = ∑ k : Fin 128, x0 (blockRowAt j k) * x1 (blockColAt j k) := by
  unfold k0_pay1
  refine (Ideal.matmul_constant_zero_apply dot_S10000x128_S128x128_S10000x128_1_0_0_1_n_n none _ _ j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blockRowAt j k := funext fun a => Fin.ext (by
    match a with
    | ⟨0, _⟩ => exact lhs_block_0 _ _
    | ⟨1, _⟩ => exact (lhs_block_1 _ _).trans hk)
  have er : dot_S10000x128_S128x128_S10000x128_1_0_0_1_n_n.rhsIdx j ((ValueIdx.contrEquiv1 dot_S10000x128_S128x128_S10000x128_1_0_0_1_n_n 128 rfl rfl).symm k) = blockColAt j k := funext fun a => Fin.ext (by
    match a with
    | ⟨0, _⟩ => exact (rhs_block_0 _ _).trans hk
    | ⟨1, _⟩ => exact rhs_block_1 _ _)
  exact congrArg₂ (· * ·) (congrArg x0 el) (congrArg x1 er)

/-! ## From the blocks to the array -/

variable (V : (c : Dev nD) → (b : Ref sig .tc) → Buf (Elt Ideal) ((c : Thread nD τ).loc b))

/-- The two operand arrays as the region finds them, at their literal types. -/
abbrev lhsArr (c : Dev nD) : S100000x128.Idx → EReal := V c main_arg0
abbrev rhsArr (c : Dev nD) : S128x128.Idx → EReal := V c main_arg1

theorem off_zero : (![0, 0] : Fin 2 → Nat) = fun _ => 0 := funext fun a => by fin_cases a <;> rfl

/-- The printed index maps over the grid: the left operand's block and the output's block are block `t` of the rows and
    the whole of the columns; the right operand's block is the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region finds. -/
theorem flushed_eq (c : Dev nD) (t : Fin cfg0.N) :
    (dat0 V c).flushed 2 t = ((cfg0.win 2).blk t).view.read (Elt Ideal) (prod (lhsArr V c) (rhsArr V c)) := by
  show (cfg0.win 2).cut (grid0.coords t) ((dat0 V c).after 2 t) = _
  rw [after0_2]
  unfold out0_2
  rw [View.canon_unit_zero off_zero]
  simp only [View.ld_unit_zero (S := S10000x128) off_zero, View.ld_unit_zero (S := S128x128) off_zero]
  funext j
  refine (payload_apply _ _ j).trans ?_
  show _ = ∑ k : Fin 128, lhsArr V c (rowAt (((cfg0.win 2).blk t).view.emb j) k) * rhsArr V c (colAt (((cfg0.win 2).blk t).view.emb j) k)
  refine Finset.sum_congr rfl fun k _ => ?_
  obtain ⟨e0, e1, e2, e3, e4, e5⟩ := index_facts t
  have h0 : ((cfg0.win 0).blk t).view.emb (blockRowAt j k) = rowAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (blockColAt j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  show lhsArr V c (((cfg0.win 0).blk t).view.emb (blockRowAt j k)) * rhsArr V c (((cfg0.win 1).blk t).view.emb (blockColAt j k)) = _
  rw [h0, h1]

/-- An index of the array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Row `r` lies in block `r / 10000`: the ten blocks cover the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 10000 < cfg0.N := lt_of_lt_of_eq (by omega : (i 0).val / 10000 < 10) (by decide +kernel : (10 : Nat) = grid0.N)
  refine ⟨(⟨(i 0).val / 10000, ht⟩ : Fin cfg0.N), flush0_2 _, ?_⟩
  rw [mem_block]
  obtain ⟨e0, e1, e2, e3, e4, e5⟩ := index_facts (⟨(i 0).val / 10000, ht⟩ : Fin cfg0.N)
  intro a
  match a with
  | ⟨0, _⟩ =>
    show win0_2.index (⟨(i 0).val / 10000, ht⟩ : Fin cfg0.N) (0 : Fin 2) * 10000 ≤ (i 0).val ∧ (i 0).val < win0_2.index (⟨(i 0).val / 10000, ht⟩ : Fin cfg0.N) (0 : Fin 2) * 10000 + 10000
    rw [e4]; show (i 0).val / 10000 * 10000 ≤ (i 0).val ∧ (i 0).val < (i 0).val / 10000 * 10000 + 10000; omega
  | ⟨1, _⟩ =>
    show win0_2.index (⟨(i 0).val / 10000, ht⟩ : Fin cfg0.N) (1 : Fin 2) * 128 ≤ (i 1).val ∧ (i 1).val < win0_2.index (⟨(i 0).val / 10000, ht⟩ : Fin cfg0.N) (1 : Fin 2) * 128 + 128
    rw [e5]; omega

/-- After the region the output array is the product of the two operand arrays as the region found them. -/
theorem final (c : Dev nD) : (dat0 V c).arrAt 2 cfg0.N = prod (lhsArr V c) (rhsArr V c) :=
  (dat0 V c).arrAt_eq_of_cover 2 _ (fun t _ => flushed_eq V c t) cover

end Cert.KernelIdeal.Product

end
-- ==== Proof.Rectify.lean ====
/-
  The second kernel region's output array. Each of the ten grid points loads a block of 10000 rows of its input
  array, takes the elementwise maximum with zero, and stores the result to the same block of the output. The
  blocks tile the 100000 rows, so after the region the output holds max(a, 0) at every index of the input `a`.
-/
import proofs.«173823_j26551487823936_1_alg».proof.Proof.Gen.KernelIdeal.Frame
import Idealize.ShloMosaic.Lib.Pipeline.Value
import Idealize.ShloMosaic.Lib.ValueIdx

set_option maxRecDepth 16384

noncomputable section

namespace Cert.KernelIdeal.Rectify

open Cert.KernelIdeal Cert.KernelIdeal.Gen
open Idealize.ShloMosaic Idealize.ShloMosaic.TcCoe Idealize.SL.Sem
open Idealize.ShloMosaic.Pipeline (Dat Cfg Window)

/-! ## The rectified array -/

/-- The array of zeros: the scalar zero broadcast to the whole shape. -/
def zeros : S100000x128.Idx → EReal :=
  broadcastInDim S100000x128 ![] Facts₀.bcast_S_S100000x128 (constant (F := Ideal) S_ .f32 0x00000000#32)

theorem zeros_apply (i : S100000x128.Idx) : zeros i = Ideal.ofBits .f32 0x00000000#32 :=
  broadcastInDim_apply _ Facts₀.bcast_S_S100000x128 (constant (F := Ideal) S_ .f32 0x00000000#32) i (fun a => a.elim0) (fun a => a.elim0)

/-- The elementwise maximum of an array with zero. -/
def rectified (A : S100000x128.Idx → EReal) : S100000x128.Idx → EReal := maximumf (F := Ideal) (φ := .f32) A zeros

theorem rectified_apply (A : S100000x128.Idx → EReal) (i : S100000x128.Idx) :
    rectified A i = max (A i) (Ideal.ofBits .f32 0x00000000#32) := by
  show max (A i) (zeros i) = _
  rw [zeros_apply]

/-! ## One block's payload at an index -/

/-- What a grid point stores, at an index of its block: the shape cast to the same shape is the identity, and the
    splat constant reads zero everywhere. -/
theorem payload_apply (x : Vec Ideal S10000x128 .f32) (j : S10000x128.Idx) :
    k1_pay1 (F := Ideal) x j = max (x j) (Ideal.ofBits .f32 0x00000000#32) := by
  unfold k1_pay1
  show max (shapeCast S10000x128 x Facts₀.shapeCasts_S10000x128_S10000x128 j) (Ideal.ofBits .f32 0x00000000#32) = _
  rw [shapeCast_self]

/-! ## From the blocks to the array -/

variable (V : (c : Dev nD) → (b : Ref sig .tc) → Buf (Elt Ideal) ((c : Thread nD τ).loc b))

/-- The input array as the region finds it, at its literal type. -/
abbrev inArr (c : Dev nD) : S100000x128.Idx → EReal := V c main_v13

theorem off_zero : (![0, 0] : Fin 2 → Nat) = fun _ => 0 := funext fun a => by fin_cases a <;> rfl

/-- The printed index maps over the grid: input and output blocks are both block `t` of the rows and the whole of
    the columns. -/
theorem index_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the rectified input array. -/
theorem flushed_eq (c : Dev nD) (t : Fin cfg1.N) :
    (dat1 V c).flushed 1 t = ((cfg1.win 1).blk t).view.read (Elt Ideal) (rectified (inArr V c)) := by
  show (cfg1.win 1).cut (grid1.coords t) ((dat1 V c).after 1 t) = _
  rw [after1_1]
  unfold out1_1
  rw [View.canon_unit_zero off_zero]
  simp only [View.ld_unit_zero (S := S10000x128) off_zero]
  funext j
  refine (payload_apply _ j).trans ?_
  show _ = rectified (inArr V c) (((cfg1.win 1).blk t).view.emb j)
  rw [rectified_apply]
  obtain ⟨e0, e1, e2, e3⟩ := index_facts t
  have h0 : ((cfg1.win 0).blk t).view.emb j = ((cfg1.win 1).blk t).view.emb j := by
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 128 + 1 * (j 1).val = win1_1.index t (1 : Fin 2) * 128 + 1 * (j 1).val; omega
  show max (inArr V c (((cfg1.win 0).blk t).view.emb j)) _ = _
  rw [h0]

/-- An index of the array is in point `t`'s block iff each coordinate is in the block's range on its axis. -/
theorem mem_block (t : Fin cfg1.N) (i : S100000x128.Idx) :
    i ∈ ((cfg1.win 1).blk t).view.set ↔ ∀ a : Fin 2, win1_1.index t a * S10000x128.size a ≤ (i a).val ∧ (i a).val < win1_1.index t a * S10000x128.size a + S10000x128.size a := by
  show i ∈ ((View.whole main_v14).slice (win1_1.rect t)).set ↔ _
  rw [View.set_slice_whole, Rect.mem_set_unit]
  exact Iff.rfl

/-- Row `r` lies in block `r / 10000`: the ten blocks cover the array. -/
theorem cover (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  have ht : (i 0).val / 10000 < cfg1.N := lt_of_lt_of_eq (by omega : (i 0).val / 10000 < 10) (by decide +kernel : (10 : Nat) = grid1.N)
  refine ⟨(⟨(i 0).val / 10000, ht⟩ : Fin cfg1.N), flush1_1 _, ?_⟩
  rw [mem_block]
  obtain ⟨e0, e1, e2, e3⟩ := index_facts (⟨(i 0).val / 10000, ht⟩ : Fin cfg1.N)
  intro a
  match a with
  | ⟨0, _⟩ =>
    show win1_1.index (⟨(i 0).val / 10000, ht⟩ : Fin cfg1.N) (0 : Fin 2) * 10000 ≤ (i 0).val ∧ (i 0).val < win1_1.index (⟨(i 0).val / 10000, ht⟩ : Fin cfg1.N) (0 : Fin 2) * 10000 + 10000
    rw [e2]; show (i 0).val / 10000 * 10000 ≤ (i 0).val ∧ (i 0).val < (i 0).val / 10000 * 10000 + 10000; omega
  | ⟨1, _⟩ =>
    show win1_1.index (⟨(i 0).val / 10000, ht⟩ : Fin cfg1.N) (1 : Fin 2) * 128 ≤ (i 1).val ∧ (i 1).val < win1_1.index (⟨(i 0).val / 10000, ht⟩ : Fin cfg1.N) (1 : Fin 2) * 128 + 128
    rw [e3]; omega

/-- After the region the output array is the input array, as the region found it, rectified. -/
theorem final (c : Dev nD) : (dat1 V c).arrAt 1 cfg1.N = rectified (inArr V c) :=
  (dat1 V c).arrAt_eq_of_cover 1 _ (fun t _ => flushed_eq V c t) cover

end Cert.KernelIdeal.Rectify

end
-- ==== Proof.Stretch.lean ====
/-
  The host operations between the two kernel regions, as one function of the product array and the three edge
  arrays: a negative column id is shifted up by the number of rows; the rows of the product array at those ids
  are gathered, one per edge; each gathered row is scaled by its edge's value; and the scaled rows are added into
  an array of zeros at their edges' row ids. The region that follows is entered with this array.
-/
import proofs.«173823_j26551487823936_1_alg».proof.Proof.Gen.KernelIdeal.Frame
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-- Gather by column id, scale by edge value, add up by row id. -/
def aggregate (h : FVec Ideal S100000x128 .f32) (vals : FVec Ideal S1600000 .f32) (rows cols : IVec S1600000 32) :
    FVec Ideal S100000x128 .f32 :=
  Host.scatterAdd (F := Ideal) scatter_S100000x128_S1600000x1_S1600000x128_1_0_0_1
    (broadcastInDim S100000x128 ![] Facts₀.bcast_S_S100000x128 (constant (F := Ideal) S_ .f32 0x00000000#32))
    (broadcastInDim S1600000x1 ![0] Facts₀.bcast_S1600000_S1600000x1_0 rows)
    (mulf (F := Ideal) (broadcastInDim S1600000x128 ![0, 1] Facts₀.bcast_S1600000x1_S1600000x128_0_1 (broadcastInDim S1600000x1 ![0] Facts₀.bcast_S1600000_S1600000x1_0 vals))
      (Host.gather gather_S100000x128_S1600000x1_S1600000x128_1_0_n_n_0_1_1128 h
        (broadcastInDim S1600000x1 ![0] Facts₀.bcast_S1600000_S1600000x1_0
          (select (cmpi .slt cols (broadcastInDim S1600000 ![] Facts₀.bcast_S_S1600000 (constantI S_ 32 0#32)))
            (addi cols (broadcastInDim S1600000 ![] Facts₀.bcast_S_S1600000 (constantI S_ 32 100000#32))) cols))))

variable (m : (ℓ : Loc nD τ sig) → Buf (Elt Ideal) ℓ) (ρ : Dev nD → PrngReg)

/-- The second region's input array when it is entered: the stretch's function of what the first region left in its
    output array and of the edge arrays as they stood at the first region's exit. -/
theorem entry (c : Dev nD) :
    V2 m ρ c main_v13 = aggregate (W1 m ρ c (Proc.devRef .tc main_v0)) (W1 m ρ c (Proc.devRef .tc main_arg2))
      (W1 m ρ c (Proc.devRef .tc main_arg3)) (W1 m ρ c (Proc.devRef .tc main_arg4)) := by
  show StableHlo.after hostOps1 (W1 m ρ c) (Proc.devRef .tc main_v13) = _
  unfold aggregate
  after_results <;> rfl

/-- The first region writes none of the edge arrays: each holds at its exit what it held at the launch. -/
theorem exit_arg2 (c : Dev nD) : W1 m ρ c (Proc.devRef .tc main_arg2) = m ((c : Thread nD τ).loc main_arg2) :=
  W1_of_ne m ρ c main_arg2 (by decide)
theorem exit_arg3 (c : Dev nD) : W1 m ρ c (Proc.devRef .tc main_arg3) = m ((c : Thread nD τ).loc main_arg3) :=
  W1_of_ne m ρ c main_arg3 (by decide)
theorem exit_arg4 (c : Dev nD) : W1 m ρ c (Proc.devRef .tc main_arg4) = m ((c : Thread nD τ).loc main_arg4) :=
  W1_of_ne m ρ c main_arg4 (by decide)

end Cert.KernelIdeal.Stretch

end
-- ==== Proof.Result.lean ====
/-
  The kernel program's result as one function of its arguments. The last region's output array is the rectified
  contents of its input array; that input is what the host stretch makes of the first region's output array and
  the edge arrays; and the first region's output array is the product of the first two arguments. No region and no
  host operation writes an argument, so every argument array is read at its launch contents.
-/
import proofs.«173823_j26551487823936_1_alg».proof.Proof.Product
import proofs.«173823_j26551487823936_1_alg».proof.Proof.Rectify
import proofs.«173823_j26551487823936_1_alg».proof.Proof.Stretch

set_option maxRecDepth 16384

noncomputable section

namespace Cert.KernelIdeal.Result

open Cert.KernelIdeal Cert.KernelIdeal.Gen
open Idealize.ShloMosaic Idealize.ShloMosaic.TcCoe Idealize.SL.Sem

/-- relu( Σ over edges into a row of value · (x · w)[column] ), as the composition of the three stages. -/
def value (x : FVec Ideal S100000x128 .f32) (w : FVec Ideal S128x128 .f32) (vals : FVec Ideal S1600000 .f32)
    (rows cols : IVec S1600000 32) : FVec Ideal S100000x128 .f32 :=
  Rectify.rectified (Stretch.aggregate (Product.prod x w) vals rows cols)

variable (m : (ℓ : Loc nD τ sig) → Buf (Elt Ideal) ℓ) (ρ : Dev nD → PrngReg)

/-- The first region's output array at its exit is the product of the first two arguments. -/
theorem exit_product (c : Dev nD) :
    W1 m ρ c (Proc.devRef .tc main_v0) = Product.prod (m ((c : Thread nD τ).loc main_arg0)) (m ((c : Thread nD τ).loc main_arg1)) :=
  (W1_arr m ρ c 2).trans (Product.final (V0 m ρ) c)

/-- The result array after the run is `value` of the arguments' launch contents. -/
theorem result_eq (c : Dev nD) :
    W3 m ρ c (Proc.devRef .tc main_v14) = value (m ((c : Thread nD τ).loc main_arg0)) (m ((c : Thread nD τ).loc main_arg1))
      (m ((c : Thread nD τ).loc main_arg2)) (m ((c : Thread nD τ).loc main_arg3)) (m ((c : Thread nD τ).loc main_arg4)) := by
  refine (W3_arr m ρ c 1).trans ((Rectify.final (V2 m ρ) c).trans ?_)
  refine congrArg Rectify.rectified ((Stretch.entry m ρ c).trans ?_)
  rw [exit_product, Stretch.exit_arg2, Stretch.exit_arg3, Stretch.exit_arg4]

end Cert.KernelIdeal.Result

end
-- ==== Proof.Agree.lean ====
/-
  The reference computes the same function of the arguments. Its matrix product, read at an index, is the same
  sum of products along the contracted axis as the first kernel region's array; everything after the product is, operation for
  operation, the host stretch and the elementwise maximum with zero that the kernel program applies.
-/
import proofs.«173823_j26551487823936_1_alg».proof.Proof.Gen.ReferenceIdeal.Read
import proofs.«173823_j26551487823936_1_alg».proof.Proof.Result

noncomputable section

namespace Cert.ReferenceIdeal.Agree

open Cert.ReferenceIdeal Cert.ReferenceIdeal.Gen
open Idealize.ShloMosaic Idealize.ShloMosaic.TcCoe Idealize.SL.Sem

/-- The host's matrix product is the product array: at (r, c), the sum over k of x(r, k) · w(k, c). -/
theorem dot_eq (x0 : FVec Ideal S100000x128 .f32) (x1 : FVec Ideal S128x128 .f32) :
    Host.dotGeneral (F := Ideal) dot_S100000x128_S128x128_S100000x128_1_0_0_1_n_n none x0 x1 = Cert.KernelIdeal.Product.prod x0 x1 := by
  funext i
  exact Cert.ReferenceIdeal.Read.val_main_v0_apply x0 x1 i

/-- The reference's result term is the kernel program's `value` of the same arguments. -/
theorem result_eq (x0 : FVec Ideal S100000x128 .f32) (x1 : FVec Ideal S128x128 .f32)
    (x2 : FVec Ideal S1600000 .f32) (x3 x4 : IVec S1600000 32) :
    maximumf (Host.scatterAdd scatter_S100000x128_S1600000x1_S1600000x128_1_0_0_1 (broadcastInDim S100000x128 ![] Facts₀.bcast_S_S100000x128 (constant S_ .f32 0x00000000#32)) (broadcastInDim S1600000x1 ![0] Facts₀.bcast_S1600000_S1600000x1_0 (x3)) (mulf (broadcastInDim S1600000x128 ![0, 1] Facts₀.bcast_S1600000x1_S1600000x128_0_1 (broadcastInDim S1600000x1 ![0] Facts₀.bcast_S1600000_S1600000x1_0 (x2))) (Host.gather gather_S100000x128_S1600000x1_S1600000x128_1_0_n_n_0_1_1128 (Host.dotGeneral dot_S100000x128_S128x128_S100000x128_1_0_0_1_n_n none (x0) (x1)) (broadcastInDim S1600000x1 ![0] Facts₀.bcast_S1600000_S1600000x1_0 (select (cmpi .slt (x4) (broadcastInDim S1600000 ![] Facts₀.bcast_S_S1600000 (constantI S_ 32 0#32))) (addi (x4) (broadcastInDim S1600000 ![] Facts₀.bcast_S_S1600000 (constantI S_ 32 100000#32))) (x4)))))) (broadcastInDim S100000x128 ![] Facts₀.bcast_S_S100000x128 (constant S_ .f32 0x00000000#32))
      = Cert.KernelIdeal.Result.value x0 x1 x2 x3 x4 := by
  rw [dot_eq]
  rfl

end Cert.ReferenceIdeal.Agree

end
-- ==== Proof.lean ====
/-
  A graph convolution: relu( Σ over the edges e into row r of  val(e) · (x · w)[col(e)] ).

  The kernel program computes the dense product x · w on the matrix unit, ten blocks of 10000 rows at a time (the
  operands narrowed to bf16 first, which over the extended reals is the identity, and accumulated into zero); the
  host then gathers one product row per edge, scales it by the edge's value and adds the scaled rows up by the edges'
  row ids; and a second kernel takes the maximum with zero, again ten blocks of 10000 rows at a time. The reference
  forms the product in one host operation, applies the very same gather, scaling and scatter-add, and takes the
  maximum with zero over the whole array.

  Over the extended reals both products are, at (r, c), the sum over k < 128 of x(r, k) · w(k, c); the blocks of
  each kernel region tile its array, so each region's array is one whole-array function of the region's input; and
  from the product on the two programs apply the same operations. So both results are one function, `value`, of the
  arguments. No law of the extended reals that could fail at an infinity is used: the sums are the same sums in the
  same order, so the finiteness of the inputs is never opened.
-/
import proofs.«173823_j26551487823936_1_alg».proof.Defs
import proofs.«173823_j26551487823936_1_alg».proof.Proof.Gen.Kernel
import proofs.«173823_j26551487823936_1_alg».proof.Proof.Gen.Kernel.Skeleton
import proofs.«173823_j26551487823936_1_alg».proof.Proof.Gen.Kernel.Launch
import proofs.«173823_j26551487823936_1_alg».proof.Proof.Gen.Kernel.Points
import proofs.«173823_j26551487823936_1_alg».proof.Proof.Gen.Kernel.Frame
import proofs.«173823_j26551487823936_1_alg».proof.Proof.Gen.KernelIdeal
import proofs.«173823_j26551487823936_1_alg».proof.Proof.Gen.KernelIdeal.Skeleton
import proofs.«173823_j26551487823936_1_alg».proof.Proof.Gen.KernelIdeal.Launch
import proofs.«173823_j26551487823936_1_alg».proof.Proof.Gen.KernelIdeal.Points
import proofs.«173823_j26551487823936_1_alg».proof.Proof.Gen.KernelIdeal.Frame
import proofs.«173823_j26551487823936_1_alg».proof.Proof.Gen.ReferenceIdeal
import proofs.«173823_j26551487823936_1_alg».proof.Proof.Gen.Pre_finite_inputs
import proofs.«173823_j26551487823936_1_alg».proof.Proof.Gen.ReferenceIdeal.Run
import proofs.«173823_j26551487823936_1_alg».proof.Proof.Gen.ReferenceIdeal.Read
import proofs.«173823_j26551487823936_1_alg».proof.Proof.Named
import proofs.«173823_j26551487823936_1_alg».proof.Proof.Result
import proofs.«173823_j26551487823936_1_alg».proof.Proof.Agree
import Idealize.ShloMosaic.Adequacy
import Idealize.ShloMosaic.Init

noncomputable section

namespace Cert.Proof

open Idealize.ShloMosaic Idealize.SL.Sem

/-- Both printed kernel programs run to the end without a fault and leave their arguments as launched. -/
theorem frame_kernel : Cert.frame_Kernel := fun m ρ _ => Cert.Kernel.Gen.frame m ρ
theorem frame_kernel_ideal : Cert.frame_KernelIdeal := fun m ρ _ => Cert.KernelIdeal.Gen.frame m ρ
/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel program and the reference both end with their result array
    at `value` of the arguments. -/
theorem algebraic : Cert.algebraic_KernelIdeal_ReferenceIdeal := by
  intro m ρ m' ρ' _ hagree
  refine ⟨fun c => Cert.KernelIdeal.Result.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Result.result_eq m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Agree.result_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
